-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x4 : Shape := ⟨2, ![1600000, 4]⟩
abbrev S4x64 : Shape := ⟨2, ![4, 64]⟩
abbrev S64 : Shape := ⟨1, ![64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000x4 .f32) (main_arg3 : FVec F S4x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x4 .f32 := Host.absf main_arg2
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x4 : Shape := ⟨2, ![1600000, 4]⟩
abbrev S4x64 : Shape := ⟨2, ![4, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S8000x4 : Shape := ⟨2, ![8000, 4]⟩
abbrev S8000x64 : Shape := ⟨2, ![8000, 64]⟩
abbrev S1x64 : Shape := ⟨2, ![1, 64]⟩
abbrev S5000x64 : Shape := ⟨2, ![5000, 64]⟩

abbrev nBuf : Space → Nat
  | .hbm => 28
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x4, .f32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S100000x64, .f32⟩
  | .local _ .vmem, ⟨0, _⟩ => ⟨S8000x4, .f32⟩
  | .local _ .vmem, ⟨1, _⟩ => ⟨S8000x4, .f32⟩
  | .local _ .vmem, ⟨2, _⟩ => ⟨S8000x64, .f32⟩
  | .local _ .vmem, ⟨3, _⟩ => ⟨S8000x64, .f32⟩
  | .local _ .vmem, ⟨4, _⟩ => ⟨S4x64, .f32⟩
  | .local _ .vmem, ⟨5, _⟩ => ⟨S64, .f32⟩
  | .local _ .vmem, ⟨6, _⟩ => ⟨S8000x64, .f32⟩
  | .local _ .vmem, ⟨7, _⟩ => ⟨S8000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x4_S8000x4_0_0 : ∀ a, (![0, 0] : Fin 2 → Nat) a + S8000x4.size a ≤ S8000x4.size a
  h_S8000x4 : 0 < S8000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  dot_S8000x4_S4x64_S8000x64_1_0_0_1_n_n_wf : DotDims.WF S8000x4 S4x64 S8000x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S1600000x4.size a
  hwx0_0 : ∀ i : grid0.Coords, EltTy.bits .f32 = 32 ∨ (Rect.block (s := S1600000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S1600000x64.size a
  hwx0_4 : ∀ i : grid0.Coords, EltTy.bits .f32 = 32 ∨ (Rect.block (s := S1600000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x4_S4x64_S8000x64_1_0_0_1_n_n : DotDims S8000x4 S4x64 S8000x64 where
  lhsContracting := [1]
  rhsContracting := [0]
  lhsNonContracting := [0]
  rhsNonContracting := [1]
  lhsBatch := []
  rhsBatch := []
  wf := dot_S8000x4_S4x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg2) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x4 : Shape := ⟨2, ![1600000, 4]⟩
abbrev S4x64 : Shape := ⟨2, ![4, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩

abbrev nBuf : Space → Nat
  | .hbm => 46
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x4, .f32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000x64, .f32⟩
  | .hbm, ⟨14, _⟩ => ⟨S1x64, .f32⟩
  | .hbm, ⟨15, _⟩ => ⟨S1600000x64, .f32⟩
  | .hbm, ⟨16, _⟩ => ⟨S1600000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S1600000x64, .f32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_cst : Ref sig .tc := ⟨.hbm, 39, rfl⟩
abbrev main_call1_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  dot_S1600000x4_S4x64_S1600000x64_1_0_0_1_n_n_wf : DotDims.WF S1600000x4 S4x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S1600000x4_S4x64_S1600000x64_1_0_0_1_n_n : DotDims S1600000x4 S4x64 S1600000x64 where
  lhsContracting := [1]
  rhsContracting := [0]
  lhsNonContracting := [0]
  rhsNonContracting := [1]
  lhsBatch := []
  rhsBatch := []
  wf := dot_S1600000x4_S4x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The two whole-array functions the layer is made of, stated once, index by index, on the extended reals, with no
  program in sight.

  * `msg xs ea we be` is the edge message: entry (r, j) is max (xs[r, j] + (Σ_k ea[r, k] · we[k, j] + be[j])) 0,
    the gathered source row plus the projected edge features and their bias, cut off below at zero.
  * `mlp x agg w1 b1 w2 b2` is the node update: with h = x + agg, entry (r, j) is
    Σ_k (max (Σ_l h[r, l] · w1[l, k] + b1[k]) 0) · w2[k, j] + b2[j].

  Both programs compute exactly these two functions, with the same association of every sum, so no law of the
  extended reals beyond the definitions is needed and no finiteness is used.
-/
import Idealize.ShloMosaic.PureOps.Ideal
import Idealize.ShloMosaic.PureOps.Ideal.Laws
import Idealize.ShloMosaic.Lib.ValueIdx

noncomputable section

open scoped BigOperators

namespace Cert.Layer

open Idealize.ShloMosaic Idealize.ShloMosaic.ValueIdx

/-- The extended real the all-zero f32 word denotes (it is 0; the word is kept so that both programs' cut-off
    constant is literally this term). -/
abbrev zeroWord : EReal := Ideal.ofBits .f32 0x00000000#32

/-- The projected edge features with their bias at edge `r`, channel `j`. -/
def edgeAt (ea : (⟨2, ![1600000, 4]⟩ : Shape).Idx → EReal) (we : (⟨2, ![4, 64]⟩ : Shape).Idx → EReal)
    (be : (⟨1, ![64]⟩ : Shape).Idx → EReal) (r : Fin 1600000) (j : Fin 64) : EReal :=
  (∑ k : Fin 4, ea (ix2 r k) * we (ix2 k j)) + be (ix1 j)

/-- The message of edge `r` at channel `j`: the gathered row plus the projected edge, cut off below at zero. -/
def msgAt (xs : (⟨2, ![1600000, 64]⟩ : Shape).Idx → EReal) (ea : (⟨2, ![1600000, 4]⟩ : Shape).Idx → EReal)
    (we : (⟨2, ![4, 64]⟩ : Shape).Idx → EReal) (be : (⟨1, ![64]⟩ : Shape).Idx → EReal) (r : Fin 1600000) (j : Fin 64) : EReal :=
  max (xs (ix2 r j) + edgeAt ea we be r j) zeroWord

/-- All messages as one array. -/
def msg (xs : (⟨2, ![1600000, 64]⟩ : Shape).Idx → EReal) (ea : (⟨2, ![1600000, 4]⟩ : Shape).Idx → EReal)
    (we : (⟨2, ![4, 64]⟩ : Shape).Idx → EReal) (be : (⟨1, ![64]⟩ : Shape).Idx → EReal) :
    (⟨2, ![1600000, 64]⟩ : Shape).Idx → EReal :=
  fun i => msgAt xs ea we be (i 0) (i 1)

/-- The hidden activation of node `r` at unit `k`: the first linear map of x + agg, its bias, the cut-off at zero. -/
def hidAt (x agg : (⟨2, ![100000, 64]⟩ : Shape).Idx → EReal) (w1 : (⟨2, ![64, 64]⟩ : Shape).Idx → EReal)
    (b1 : (⟨1, ![64]⟩ : Shape).Idx → EReal) (r : Fin 100000) (k : Fin 64) : EReal :=
  max ((∑ l : Fin 64, (x (ix2 r l) + agg (ix2 r l)) * w1 (ix2 l k)) + b1 (ix1 k)) zeroWord

/-- The updated node `r` at channel `j`: the second linear map of the hidden activations and its bias. -/
def mlpAt (x agg : (⟨2, ![100000, 64]⟩ : Shape).Idx → EReal) (w1 : (⟨2, ![64, 64]⟩ : Shape).Idx → EReal)
    (b1 : (⟨1, ![64]⟩ : Shape).Idx → EReal) (w2 : (⟨2, ![64, 64]⟩ : Shape).Idx → EReal)
    (b2 : (⟨1, ![64]⟩ : Shape).Idx → EReal) (r : Fin 100000) (j : Fin 64) : EReal :=
  (∑ k : Fin 64, hidAt x agg w1 b1 r k * w2 (ix2 k j)) + b2 (ix1 j)

/-- All updated nodes as one array. -/
def mlp (x agg : (⟨2, ![100000, 64]⟩ : Shape).Idx → EReal) (w1 : (⟨2, ![64, 64]⟩ : Shape).Idx → EReal)
    (b1 : (⟨1, ![64]⟩ : Shape).Idx → EReal) (w2 : (⟨2, ![64, 64]⟩ : Shape).Idx → EReal)
    (b2 : (⟨1, ![64]⟩ : Shape).Idx → EReal) : (⟨2, ![100000, 64]⟩ : Shape).Idx → EReal :=
  fun i => mlpAt x agg w1 b1 w2 b2 (i 0) (i 1)

end Cert.Layer

end
-- ==== Proof.EdgeRegion.lean ====
/-
  The first kernel region (the edge messages) as one whole-array function.

  The region walks the 1,600,000 edges in 200 blocks of 8,000 rows. At block t it reads rows 8000·t … 8000·t + 7999 of
  the edge features and of the gathered source rows, and the whole projection matrix and bias; it writes the same rows
  of the message array. Entry (p, q) of what it writes is
      max (xs[8000·t + p, q] + (Σ_k ea[8000·t + p, k] · we[k, q] + be[q])) 0,
  which is entry (8000·t + p, q) of `Cert.Layer.msg xs ea we be`. The 200 blocks tile the array (row r lies in block
  r / 8000), so after the region the message array IS `msg` of the arrays the region found.
  The narrowing of the matrix product's operands to bf16 is the identity on the extended reals, and the product into a
  zero accumulator is the plain sum over the four edge features.
-/
import proofs.«431326_j19550691131956_3_alg».proof.Proof.Gen.KernelIdeal.Frame
import proofs.«431326_j19550691131956_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeRegion

open Cert.KernelIdeal Cert.KernelIdeal.Gen Cert.Layer
open Idealize.ShloMosaic Idealize.ShloMosaic.TcCoe Idealize.SL.Sem Idealize.ShloMosaic.ValueIdx
open Idealize.ShloMosaic.Pipeline (Dat)

/-! ## The block's matrix product at an index -/

theorem lhs_0 (i : S8000x64.Idx) (q : dot_S8000x4_S4x64_S8000x64_1_0_0_1_n_n.contr.Idx) :
    (dot_S8000x4_S4x64_S8000x64_1_0_0_1_n_n.lhsIdx i q 0).val = (i 0).val := by
  unfold DotDims.lhsIdx
  rw [dif_neg (show ¬(0 : Fin S8000x4.rank) ∈ dot_S8000x4_S4x64_S8000x64_1_0_0_1_n_n.lhsBatch by decide), dif_pos (show (0 : Fin S8000x4.rank) ∈ dot_S8000x4_S4x64_S8000x64_1_0_0_1_n_n.lhsNonContracting by decide)]
  rfl
theorem lhs_1 (i : S8000x64.Idx) (q : dot_S8000x4_S4x64_S8000x64_1_0_0_1_n_n.contr.Idx) :
    (dot_S8000x4_S4x64_S8000x64_1_0_0_1_n_n.lhsIdx i q 1).val = (q ⟨0, by decide⟩).val :=
  dot_S8000x4_S4x64_S8000x64_1_0_0_1_n_n.lhsIdx_val_of_single rfl i q
theorem rhs_0 (i : S8000x64.Idx) (q : dot_S8000x4_S4x64_S8000x64_1_0_0_1_n_n.contr.Idx) :
    (dot_S8000x4_S4x64_S8000x64_1_0_0_1_n_n.rhsIdx i q 0).val = (q ⟨0, by decide⟩).val :=
  dot_S8000x4_S4x64_S8000x64_1_0_0_1_n_n.rhsIdx_val_of_single rfl i q
theorem rhs_1 (i : S8000x64.Idx) (q : dot_S8000x4_S4x64_S8000x64_1_0_0_1_n_n.contr.Idx) :
    (dot_S8000x4_S4x64_S8000x64_1_0_0_1_n_n.rhsIdx i q 1).val = (i 1).val := by
  unfold DotDims.rhsIdx
  rw [dif_neg (show ¬(1 : Fin S4x64.rank) ∈ dot_S8000x4_S4x64_S8000x64_1_0_0_1_n_n.rhsBatch by decide), dif_pos (show (1 : Fin S4x64.rank) ∈ dot_S8000x4_S4x64_S8000x64_1_0_0_1_n_n.rhsNonContracting by decide)]
  rfl

/-- Row p of the left block times column q of the right one: the sum over the four shared coordinates. -/
theorem dot_apply (l : FVec Ideal S8000x4 .bf16) (r : FVec Ideal S4x64 .bf16) (p : Fin 8000) (q : Fin 64) :
    matmul dot_S8000x4_S4x64_S8000x64_1_0_0_1_n_n none l r (constant S8000x64 .f32 0x00000000#32) (ix2 p q)
      = ∑ k : Fin 4, l (ix2 p k) * r (ix2 k q) := by
  simp only [matmul]
  rw [Ideal.matmul_constant_zero_apply, ← Equiv.sum_comp (contrEquiv1 dot_S8000x4_S4x64_S8000x64_1_0_0_1_n_n 4 rfl rfl).symm]
  refine Finset.sum_congr rfl fun k _ => ?_
  have hk := contrEquiv1_symm_val dot_S8000x4_S4x64_S8000x64_1_0_0_1_n_n 4 rfl rfl k
  have el : dot_S8000x4_S4x64_S8000x64_1_0_0_1_n_n.lhsIdx (ix2 p q) ((contrEquiv1 dot_S8000x4_S4x64_S8000x64_1_0_0_1_n_n 4 rfl rfl).symm k) = ix2 p k := funext fun a => Fin.ext (by
    match a with
    | ⟨0, _⟩ => exact lhs_0 _ _
    | ⟨1, _⟩ => exact (lhs_1 _ _).trans hk)
  have er : dot_S8000x4_S4x64_S8000x64_1_0_0_1_n_n.rhsIdx (ix2 p q) ((contrEquiv1 dot_S8000x4_S4x64_S8000x64_1_0_0_1_n_n 4 rfl rfl).symm k) = ix2 k q := funext fun a => Fin.ext (by
    match a with
    | ⟨0, _⟩ => exact (rhs_0 _ _).trans hk
    | ⟨1, _⟩ => exact rhs_1 _ _)
  rw [el, er]

/-! ## What the body stores, at an index -/

/-- The stored value at (p, q) from the four loaded blocks. -/
theorem pay_apply (v0 : Vec Ideal S8000x4 .f32) (v2 : Vec Ideal S4x64 .f32) (v5 : Vec Ideal S64 .f32) (v9 : Vec Ideal S8000x64 .f32)
    (p : Fin 8000) (q : Fin 64) :
    k0_pay1 v0 v2 v5 v9 (ix2 p q)
      = max (v9 (ix2 p q) + ((∑ k : Fin 4, v0 (ix2 p k) * v2 (ix2 k q)) + v5 (ix1 q))) zeroWord := by
  unfold k0_pay1
  show max (_ + (_ + _)) zeroWord = _
  rw [shapeCast_self, dot_apply, broadcastTo_1b_ab_apply, shapeCast_a_1a_apply]
  rfl

/-! ## The region at the contents it is entered with -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 200 points: the two row-blocked inputs and the output sit at block row t, the
    projection matrix and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- The edge-feature block at point t is rows 8000·t … of the edge features. -/
theorem blk_ea (c : Dev nD) (t : Fin cfg0.N) (y : S8000x4.Idx) (k : S1600000x4.Idx)
    (hk0 : (k 0).val = t.val * 8000 + (y 0).val) (hk1 : (k 1).val = (y 1).val) :
    (iblk0 V c 0 t : Vec Ideal S8000x4 .f32) y = (V c main_arg2 : S1600000x4.Idx → EReal) k := by
  obtain ⟨e00, e01, -⟩ := idx_facts t
  unfold iblk0
  rw [View.read_apply]
  show (V c main_arg2 : S1600000x4.Idx → EReal) _ = V c main_arg2 _
  congr 1
  funext a
  apply Fin.ext
  match a with
  | ⟨0, _⟩ => show win0_0.index t (0 : Fin 2) * 8000 + 1 * (y 0).val = (k 0).val; rw [e00, hk0]; omega
  | ⟨1, _⟩ => show win0_0.index t (1 : Fin 2) * 4 + 1 * (y 1).val = (k 1).val; rw [e01, hk1]; omega

/-- The gathered-row block at point t is rows 8000·t … of the gathered rows. -/
theorem blk_xs (c : Dev nD) (t : Fin cfg0.N) (y : S8000x64.Idx) (k : S1600000x64.Idx)
    (hk0 : (k 0).val = t.val * 8000 + (y 0).val) (hk1 : (k 1).val = (y 1).val) :
    (iblk0 V c 1 t : Vec Ideal S8000x64 .f32) y = (V c main_v10 : S1600000x64.Idx → EReal) k := by
  obtain ⟨-, -, e10, e11, -⟩ := idx_facts t
  unfold iblk0
  rw [View.read_apply]
  show (V c main_v10 : S1600000x64.Idx → EReal) _ = V c main_v10 _
  congr 1
  funext a
  apply Fin.ext
  match a with
  | ⟨0, _⟩ => show win0_1.index t (0 : Fin 2) * 8000 + 1 * (y 0).val = (k 0).val; rw [e10, hk0]; omega
  | ⟨1, _⟩ => show win0_1.index t (1 : Fin 2) * 64 + 1 * (y 1).val = (k 1).val; rw [e11, hk1]; omega

/-- The projection-matrix block is the whole matrix at every point. -/
theorem blk_we (c : Dev nD) (t : Fin cfg0.N) (y : S4x64.Idx) :
    (iblk0 V c 2 t : Vec Ideal S4x64 .f32) y = (V c main_arg3 : S4x64.Idx → EReal) y := by
  obtain ⟨-, -, -, -, e20, e21, -⟩ := idx_facts t
  unfold iblk0
  rw [View.read_apply]
  show (V c main_arg3 : S4x64.Idx → EReal) _ = V c main_arg3 _
  congr 1
  funext a
  apply Fin.ext
  match a with
  | ⟨0, _⟩ => show win0_2.index t (0 : Fin 2) * 4 + 1 * (y 0).val = (y 0).val; rw [e20]; omega
  | ⟨1, _⟩ => show win0_2.index t (1 : Fin 2) * 64 + 1 * (y 1).val = (y 1).val; rw [e21]; omega

/-- The bias block is the whole bias at every point. -/
theorem blk_be (c : Dev nD) (t : Fin cfg0.N) (y : S64.Idx) :
    (iblk0 V c 3 t : Vec Ideal S64 .f32) y = (V c main_arg4 : S64.Idx → EReal) y := by
  obtain ⟨-, -, -, -, -, -, e30, -⟩ := idx_facts t
  unfold iblk0
  rw [View.read_apply]
  show (V c main_arg4 : S64.Idx → EReal) _ = V c main_arg4 _
  congr 1
  funext a
  apply Fin.ext
  match a with
  | ⟨0, _⟩ => show win0_3.index t (0 : Fin 1) * 64 + 1 * (y 0).val = (y 0).val; rw [e30]; omega

/-- What the body stores at block-local index j, from blocks that are rows of `ea` and `xs` at the block's offset, is
    the message at (r, column of j), r the row of the array that j's row is. -/
theorem point_eq (x0 : Vec Ideal S8000x4 .f32) (x1 : Vec Ideal S8000x64 .f32) (x2 : Vec Ideal S4x64 .f32) (x3 : Vec Ideal S64 .f32)
    (xs : S1600000x64.Idx → EReal) (ea : S1600000x4.Idx → EReal) (we : S4x64.Idx → EReal) (be : S64.Idx → EReal)
    (r : Fin 1600000) (j : S8000x64.Idx)
    (h0 : ∀ k : Fin 4, x0 (ix2 (j 0) k) = ea (ix2 r k)) (h1 : x1 j = xs (ix2 r (j 1)))
    (h2 : ∀ k : Fin 4, x2 (ix2 k (j 1)) = we (ix2 k (j 1))) (h3 : x3 (ix1 (j 1)) = be (ix1 (j 1))) :
    k0_pay1 x0 x2 x3 x1 j = msgAt xs ea we be r (j 1) := by
  obtain ⟨p, q, rfl⟩ : ∃ (p : Fin 8000) (q : Fin 64), j = ix2 p q := ⟨j 0, j 1, eq_ix2 j⟩
  rw [pay_apply, h1, h3]
  unfold msgAt edgeAt
  congr 2
  congr 1
  exact Finset.sum_congr rfl fun k _ => by rw [h0 k, h2 k]

/-- What the body stores at point t, as one function of the block-local index: the message at the block's row offset. -/
theorem stored_eq (c : Dev nD) (t : Fin cfg0.N) (ht : t.val < 200) :
    k0_pay1 (iblk0 V c 0 t) (iblk0 V c 2 t) (iblk0 V c 3 t) (iblk0 V c 1 t)
      = fun j : S8000x64.Idx => msgAt (V c main_v10) (V c main_arg2) (V c main_arg3) (V c main_arg4)
          (⟨t.val * 8000 + (j 0).val, by have hj0 : (j 0).val < 8000 := (j 0).isLt; omega⟩ : Fin 1600000) (j 1) := by
  funext j
  have hj0 : (j 0).val < 8000 := (j 0).isLt
  exact point_eq (iblk0 V c 0 t) (iblk0 V c 1 t) (iblk0 V c 2 t) (iblk0 V c 3 t)
    (V c main_v10) (V c main_arg2) (V c main_arg3) (V c main_arg4)
    (⟨t.val * 8000 + (j 0).val, by omega⟩ : Fin 1600000) j
    (fun k => blk_ea V c t (ix2 (j 0) k) (ix2 (⟨t.val * 8000 + (j 0).val, by omega⟩ : Fin 1600000) k) rfl rfl)
    (blk_xs V c t j (ix2 (⟨t.val * 8000 + (j 0).val, by omega⟩ : Fin 1600000) (j 1)) rfl rfl)
    (fun k => blk_we V c t (ix2 k (j 1)))
    (blk_be V c t (ix1 (j 1)))

/-- WHAT POINT t WRITES BACK is block t of the message array. -/
theorem flushed_eq (c : Dev nD) (t : Fin cfg0.N) :
    (dat0 V c).flushed 4 t = ((cfg0.win 4).blk t).view.read (Elt Ideal)
      (msg (V c main_v10) (V c main_arg2) (V c main_arg3) (V c main_arg4)) := by
  show (cfg0.win 4).cut (grid0.coords t) ((dat0 V c).after 4 t) = _
  rw [after0_4]
  unfold out0_4
  rw [View.canon_unit_zero hz2]
  simp only [View.ld_unit_zero (S := S8000x4) hz2, View.ld_unit_zero (S := S4x64) hz2, View.ld_unit_zero (S := S64) hz1, View.ld_unit_zero (S := S8000x64) hz2]
  obtain ⟨-, -, -, -, -, -, -, e40, e41⟩ := idx_facts t
  have hN : cfg0.N = 200 := N_0
  have ht : t.val < 200 := hN ▸ t.isLt
  refine (congrArg ((cfg0.win 4).cut (grid0.coords t)) (stored_eq V c t ht)).trans ?_
  funext j
  rw [View.read_apply]
  have hj0 : (j 0).val < 8000 := (j 0).isLt
  show msgAt (V c main_v10) (V c main_arg2) (V c main_arg3) (V c main_arg4) (⟨t.val * 8000 + (j 0).val, by omega⟩ : Fin 1600000) (⟨(j 1).val, (j 1).isLt⟩ : Fin 64)
    = msgAt (V c main_v10) (V c main_arg2) (V c main_arg3) (V c main_arg4) ((((cfg0.win 4).blk t).view.emb j) 0) ((((cfg0.win 4).blk t).view.emb j) 1)
  have hemb0 : ((((cfg0.win 4).blk t).view.emb j) 0).val = t.val * 8000 + (j 0).val := by
    show win0_4.index t (0 : Fin 2) * 8000 + 1 * (j 0).val = _; rw [e40]; omega
  have hemb1 : ((((cfg0.win 4).blk t).view.emb j) 1).val = (j 1).val := by
    show win0_4.index t (1 : Fin 2) * 64 + 1 * (j 1).val = _; rw [e41]; omega
  exact congrArg₂ (msgAt (V c main_v10) (V c main_arg2) (V c main_arg3) (V c main_arg4)) (Fin.ext hemb0.symm) (Fin.ext hemb1.symm)

/-- An index of the message array is in point t's block iff each coordinate is in the block's range on its axis. -/
theorem mem_blk (t : Fin cfg0.N) (i : S1600000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v11).slice (win0_4.rect t)).set ↔ _
  rw [View.set_slice_whole, Rect.mem_set_unit]
  exact Iff.rfl

/-- Every row of the message array lies in the block of point (row / 8000). -/
theorem cover (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  have hN : cfg0.N = 200 := N_0
  refine ⟨⟨(i 0).val / 8000, by rw [hN]; omega⟩, flush0_4 _, ?_⟩
  rw [mem_blk]
  obtain ⟨-, -, -, -, -, -, -, e40, e41⟩ := idx_facts ⟨(i 0).val / 8000, by rw [hN]; omega⟩
  intro a
  match a with
  | ⟨0, _⟩ =>
    show win0_4.index ⟨(i 0).val / 8000, _⟩ (0 : Fin 2) * 8000 ≤ (i 0).val ∧ (i 0).val < win0_4.index ⟨(i 0).val / 8000, _⟩ (0 : Fin 2) * 8000 + 8000
    rw [e40]; show (i 0).val / 8000 * 8000 ≤ (i 0).val ∧ (i 0).val < (i 0).val / 8000 * 8000 + 8000; omega
  | ⟨1, _⟩ =>
    show win0_4.index ⟨(i 0).val / 8000, _⟩ (1 : Fin 2) * 64 ≤ (i 1).val ∧ (i 1).val < win0_4.index ⟨(i 0).val / 8000, _⟩ (1 : Fin 2) * 64 + 64
    rw [e41]; omega

/-- THE MESSAGE ARRAY after the region: `msg` of the arrays the region was entered with. -/
theorem final (c : Dev nD) :
    (dat0 V c).arrAt 4 cfg0.N = msg (V c main_v10) (V c main_arg2) (V c main_arg3) (V c main_arg4) :=
  (dat0 V c).arrAt_eq_of_cover 4 _ (fun t _ => flushed_eq V c t) cover

end Cert.KernelIdeal.EdgeRegion

end
-- ==== Proof.NodeRegion.lean ====
/-
  The second kernel region (the node update) as one whole-array function.

  The region walks the 100,000 nodes in 20 blocks of 5,000 rows. At block t it reads rows 5000·t … 5000·t + 4999 of x
  and of the aggregated messages, and both weight matrices and biases whole; it writes the same rows of the result.
  With h = x + agg, entry (p, q) of what it writes is
      Σ_k (max (Σ_l h[5000·t + p, l] · w1[l, k] + b1[k]) 0) · w2[k, q] + b2[q],
  which is entry (5000·t + p, q) of `Cert.Layer.mlp x agg w1 b1 w2 b2`. The 20 blocks tile the array (row r lies in
  block r / 5000), so after the region the result array IS `mlp` of the arrays the region found.
  The narrowings to bf16 in front of the two matrix products are the identity on the extended reals, and each product
  into a zero accumulator is the plain sum over the 64 shared coordinates.
-/
import proofs.«431326_j19550691131956_3_alg».proof.Proof.Gen.KernelIdeal.Frame
import proofs.«431326_j19550691131956_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeRegion

open Cert.KernelIdeal Cert.KernelIdeal.Gen Cert.Layer
open Idealize.ShloMosaic Idealize.ShloMosaic.TcCoe Idealize.SL.Sem Idealize.ShloMosaic.ValueIdx
open Idealize.ShloMosaic.Pipeline (Dat)

/-! ## A block's matrix product with a 64 × 64 matrix, at an index -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Row p of the left block times column q of the matrix: the sum over the 64 shared coordinates. -/
theorem dot_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-! ## What the body stores, at an index -/

/-- The hidden activation the body forms at (p, k): the first product of x + agg, its bias, the cut-off at zero. -/
theorem hid_apply (v0 v1 : Vec Ideal S5000x64 .f32) (v5 : Vec Ideal S64x64 .f32) (v8 : Vec Ideal S64 .f32) (p : Fin 5000) (k : Fin 64) :
    maximumf (addf (matmul dot_S5000x64_S64x64_S5000x64_1_0_0_1_n_n none (truncf .bf16 (addf v0 (shapeCast S5000x64 v1 shapeCasts_S5000x64_S5000x64)) bitsLt_bf16_f32 : FVec Ideal S5000x64 .bf16)
        (truncf .bf16 v5 bitsLt_bf16_f32 : FVec Ideal S64x64 .bf16) (constant S5000x64 .f32 0x00000000#32))
      (broadcastTo S5000x64 (shapeCast S1x64 v8 shapeCasts_S64_S1x64) broadcasts_S1x64_S5000x64))
      (broadcast S5000x64 (Scalar.ofBits (F := Ideal) .f32 0x00000000#32)) (ix2 p k)
      = max ((∑ l : Fin 64, (v0 (ix2 p l) + v1 (ix2 p l)) * v5 (ix2 l k)) + v8 (ix1 k)) zeroWord := by
  show max (_ + _) zeroWord = _
  rw [dot_apply, broadcastTo_1b_ab_apply, shapeCast_a_1a_apply, shapeCast_self]
  rfl

/-- The stored value at (p, q) from the six loaded blocks. -/
theorem pay_apply (v0 v1 : Vec Ideal S5000x64 .f32) (v5 : Vec Ideal S64x64 .f32) (v8 : Vec Ideal S64 .f32)
    (v15 : Vec Ideal S64x64 .f32) (v18 : Vec Ideal S64 .f32) (p : Fin 5000) (q : Fin 64) :
    k1_pay1 v0 v1 v5 v8 v15 v18 (ix2 p q)
      = (∑ k : Fin 64, max ((∑ l : Fin 64, (v0 (ix2 p l) + v1 (ix2 p l)) * v5 (ix2 l k)) + v8 (ix1 k)) zeroWord * v15 (ix2 k q))
        + v18 (ix1 q) := by
  unfold k1_pay1
  show _ + _ = _
  rw [dot_apply, broadcastTo_1b_ab_apply, shapeCast_a_1a_apply]
  congr 1
  exact Finset.sum_congr rfl fun k _ => congrArg (· * v15 (ix2 k q)) (hid_apply v0 v1 v5 v8 p k)

/-! ## The region at the contents it is entered with -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 20 points: the two row-blocked inputs and the output sit at block row t, the two
    weight matrices and the two biases at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The x block at point t is rows 5000·t … of x. -/
theorem blk_x (c : Dev nD) (t : Fin cfg1.N) (y : S5000x64.Idx) (k : S100000x64.Idx)
    (hk0 : (k 0).val = t.val * 5000 + (y 0).val) (hk1 : (k 1).val = (y 1).val) :
    (iblk1 V c 0 t : Vec Ideal S5000x64 .f32) y = (V c main_arg0 : S100000x64.Idx → EReal) k := by
  obtain ⟨e0, e1, -⟩ := idx_facts t
  unfold iblk1
  rw [View.read_apply]
  show (V c main_arg0 : S100000x64.Idx → EReal) _ = V c main_arg0 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 64 + 1 * (y 1).val = (k 1).val; rw [e1, hk1]; omega

/-- The aggregate block at point t is rows 5000·t … of the aggregate. -/
theorem blk_agg (c : Dev nD) (t : Fin cfg1.N) (y : S5000x64.Idx) (k : S100000x64.Idx)
    (hk0 : (k 0).val = t.val * 5000 + (y 0).val) (hk1 : (k 1).val = (y 1).val) :
    (iblk1 V c 1 t : Vec Ideal S5000x64 .f32) y = (V c main_v14 : S100000x64.Idx → EReal) k := by
  obtain ⟨-, -, e0, e1, -⟩ := idx_facts t
  unfold iblk1
  rw [View.read_apply]
  show (V c main_v14 : S100000x64.Idx → EReal) _ = V c main_v14 _
  congr 1
  funext a
  apply Fin.ext
  match a with
  | ⟨0, _⟩ => show win1_1.index t (0 : Fin 2) * 5000 + 1 * (y 0).val = (k 0).val; rw [e0, hk0]; omega
  | ⟨1, _⟩ => show win1_1.index t (1 : Fin 2) * 64 + 1 * (y 1).val = (k 1).val; rw [e1, hk1]; omega

/-- The first weight matrix's block is the whole matrix at every point. -/
theorem blk_w1 (c : Dev nD) (t : Fin cfg1.N) (y : S64x64.Idx) :
    (iblk1 V c 2 t : Vec Ideal S64x64 .f32) y = (V c main_arg5 : S64x64.Idx → EReal) y := by
  obtain ⟨-, -, -, -, e0, e1, -⟩ := idx_facts t
  unfold iblk1
  rw [View.read_apply]
  show (V c main_arg5 : S64x64.Idx → EReal) _ = V c main_arg5 _
  congr 1
  funext a
  apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The first bias's block is the whole bias at every point. -/
theorem blk_b1 (c : Dev nD) (t : Fin cfg1.N) (y : S64.Idx) :
    (iblk1 V c 3 t : Vec Ideal S64 .f32) y = (V c main_arg6 : S64.Idx → EReal) y := by
  obtain ⟨-, -, -, -, -, -, e0, -⟩ := idx_facts t
  unfold iblk1
  rw [View.read_apply]
  show (V c main_arg6 : S64.Idx → EReal) _ = V c main_arg6 _
  congr 1
  funext a
  apply Fin.ext
  match a with
  | ⟨0, _⟩ => show win1_3.index t (0 : Fin 1) * 64 + 1 * (y 0).val = (y 0).val; rw [e0]; omega

/-- The second weight matrix's block is the whole matrix at every point. -/
theorem blk_w2 (c : Dev nD) (t : Fin cfg1.N) (y : S64x64.Idx) :
    (iblk1 V c 4 t : Vec Ideal S64x64 .f32) y = (V c main_arg7 : S64x64.Idx → EReal) y := by
  obtain ⟨-, -, -, -, -, -, -, e0, e1, -⟩ := idx_facts t
  unfold iblk1
  rw [View.read_apply]
  show (V c main_arg7 : S64x64.Idx → EReal) _ = V c main_arg7 _
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The second bias's block is the whole bias at every point. -/
theorem blk_b2 (c : Dev nD) (t : Fin cfg1.N) (y : S64.Idx) :
    (iblk1 V c 5 t : Vec Ideal S64 .f32) y = (V c main_arg8 : S64.Idx → EReal) y := by
  obtain ⟨-, -, -, -, -, -, -, -, -, e0, -⟩ := idx_facts t
  unfold iblk1
  rw [View.read_apply]
  show (V c main_arg8 : S64.Idx → EReal) _ = V c main_arg8 _
  congr 1
  funext a
  apply Fin.ext
  match a with
  | ⟨0, _⟩ => show win1_5.index t (0 : Fin 1) * 64 + 1 * (y 0).val = (y 0).val; rw [e0]; omega

/-- What the body stores at block-local index j, from blocks that are rows of x and of the aggregate at the block's
    offset, is the updated node at (r, column of j), r the row of the array that j's row is. -/
theorem point_eq (x0 x1 : Vec Ideal S5000x64 .f32) (x2 : Vec Ideal S64x64 .f32) (x3 : Vec Ideal S64 .f32)
    (x4 : Vec Ideal S64x64 .f32) (x5 : Vec Ideal S64 .f32)
    (x agg : S100000x64.Idx → EReal) (w1 : S64x64.Idx → EReal) (b1 : S64.Idx → EReal) (w2 : S64x64.Idx → EReal) (b2 : S64.Idx → EReal)
    (r : Fin 100000) (j : S5000x64.Idx)
    (h0 : ∀ l : Fin 64, x0 (ix2 (j 0) l) = x (ix2 r l)) (h1 : ∀ l : Fin 64, x1 (ix2 (j 0) l) = agg (ix2 r l))
    (h2 : ∀ l k : Fin 64, x2 (ix2 l k) = w1 (ix2 l k)) (h3 : ∀ k : Fin 64, x3 (ix1 k) = b1 (ix1 k))
    (h4 : ∀ k : Fin 64, x4 (ix2 k (j 1)) = w2 (ix2 k (j 1))) (h5 : x5 (ix1 (j 1)) = b2 (ix1 (j 1))) :
    k1_pay1 x0 x1 x2 x3 x4 x5 j = mlpAt x agg w1 b1 w2 b2 r (j 1) := by
  obtain ⟨p, q, rfl⟩ : ∃ (p : Fin 5000) (q : Fin 64), j = ix2 p q := ⟨j 0, j 1, eq_ix2 j⟩
  rw [pay_apply, h5]
  unfold mlpAt hidAt
  congr 1
  refine Finset.sum_congr rfl fun k _ => ?_
  rw [h4 k, h3 k]
  congr 3
  exact Finset.sum_congr rfl fun l _ => by rw [h0 l, h1 l, h2 l k]

/-- What the body stores at point t, as one function of the block-local index: the updated nodes at the block's row
    offset. -/
theorem stored_eq (c : Dev nD) (t : Fin cfg1.N) (ht : t.val < 20) :
    k1_pay1 (iblk1 V c 0 t) (iblk1 V c 1 t) (iblk1 V c 2 t) (iblk1 V c 3 t) (iblk1 V c 4 t) (iblk1 V c 5 t)
      = fun j : S5000x64.Idx => mlpAt (V c main_arg0) (V c main_v14) (V c main_arg5) (V c main_arg6) (V c main_arg7) (V c main_arg8)
          (⟨t.val * 5000 + (j 0).val, by have hj0 : (j 0).val < 5000 := (j 0).isLt; omega⟩ : Fin 100000) (j 1) := by
  funext j
  have hj0 : (j 0).val < 5000 := (j 0).isLt
  exact point_eq (iblk1 V c 0 t) (iblk1 V c 1 t) (iblk1 V c 2 t) (iblk1 V c 3 t) (iblk1 V c 4 t) (iblk1 V c 5 t)
    (V c main_arg0) (V c main_v14) (V c main_arg5) (V c main_arg6) (V c main_arg7) (V c main_arg8)
    (⟨t.val * 5000 + (j 0).val, by omega⟩ : Fin 100000) j
    (fun l => blk_x V c t (ix2 (j 0) l) (ix2 (⟨t.val * 5000 + (j 0).val, by omega⟩ : Fin 100000) l) rfl rfl)
    (fun l => blk_agg V c t (ix2 (j 0) l) (ix2 (⟨t.val * 5000 + (j 0).val, by omega⟩ : Fin 100000) l) rfl rfl)
    (fun l k => blk_w1 V c t (ix2 l k))
    (fun k => blk_b1 V c t (ix1 k))
    (fun k => blk_w2 V c t (ix2 k (j 1)))
    (blk_b2 V c t (ix1 (j 1)))

/-- WHAT POINT t WRITES BACK is block t of the result array. -/
theorem flushed_eq (c : Dev nD) (t : Fin cfg1.N) :
    (dat1 V c).flushed 6 t = ((cfg1.win 6).blk t).view.read (Elt Ideal)
      (mlp (V c main_arg0) (V c main_v14) (V c main_arg5) (V c main_arg6) (V c main_arg7) (V c main_arg8)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S64x64) hz2, View.ld_unit_zero (S := S64) hz1]
  obtain ⟨-, -, -, -, -, -, -, -, -, -, e60, e61⟩ := idx_facts t
  have hN : cfg1.N = 20 := N_1
  have ht : t.val < 20 := hN ▸ t.isLt
  refine (congrArg ((cfg1.win 6).cut (grid1.coords t)) (stored_eq V c t ht)).trans ?_
  funext j
  rw [View.read_apply]
  have hj0 : (j 0).val < 5000 := (j 0).isLt
  show mlpAt (V c main_arg0) (V c main_v14) (V c main_arg5) (V c main_arg6) (V c main_arg7) (V c main_arg8) (⟨t.val * 5000 + (j 0).val, by omega⟩ : Fin 100000) (⟨(j 1).val, (j 1).isLt⟩ : Fin 64)
    = mlpAt (V c main_arg0) (V c main_v14) (V c main_arg5) (V c main_arg6) (V c main_arg7) (V c main_arg8) ((((cfg1.win 6).blk t).view.emb j) 0) ((((cfg1.win 6).blk t).view.emb j) 1)
  have hemb0 : ((((cfg1.win 6).blk t).view.emb j) 0).val = t.val * 5000 + (j 0).val := by
    show win1_6.index t (0 : Fin 2) * 5000 + 1 * (j 0).val = _; rw [e60]; omega
  have hemb1 : ((((cfg1.win 6).blk t).view.emb j) 1).val = (j 1).val := by
    show win1_6.index t (1 : Fin 2) * 64 + 1 * (j 1).val = _; rw [e61]; omega
  exact congrArg₂ (mlpAt (V c main_arg0) (V c main_v14) (V c main_arg5) (V c main_arg6) (V c main_arg7) (V c main_arg8)) (Fin.ext hemb0.symm) (Fin.ext hemb1.symm)

/-- An index of the result array is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v15).slice (win1_6.rect t)).set ↔ _
  rw [View.set_slice_whole, Rect.mem_set_unit]
  exact Iff.rfl

/-- Every row of the result array lies in the block of point (row / 5000). -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_6 _, ?_⟩
  rw [mem_blk]
  obtain ⟨-, -, -, -, -, -, -, -, -, -, e60, e61⟩ := idx_facts ⟨(i 0).val / 5000, by rw [hN]; omega⟩
  intro a
  match a with
  | ⟨0, _⟩ =>
    show win1_6.index ⟨(i 0).val / 5000, _⟩ (0 : Fin 2) * 5000 ≤ (i 0).val ∧ (i 0).val < win1_6.index ⟨(i 0).val / 5000, _⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, _⟩ (1 : Fin 2) * 64 ≤ (i 1).val ∧ (i 1).val < win1_6.index ⟨(i 0).val / 5000, _⟩ (1 : Fin 2) * 64 + 64
    rw [e61]; omega

/-- THE RESULT ARRAY after the region: `mlp` of the arrays the region was entered with. -/
theorem final (c : Dev nD) :
    (dat1 V c).arrAt 6 cfg1.N = mlp (V c main_arg0) (V c main_v14) (V c main_arg5) (V c main_arg6) (V c main_arg7) (V c main_arg8) :=
  (dat1 V c).arrAt_eq_of_cover 6 _ (fun t _ => flushed_eq V c t) cover

end Cert.KernelIdeal.NodeRegion

end
-- ==== Proof.KernelValue.lean ====
/-
  The kernel program's result as the two whole-array functions of `Cert.Layer`.

  The program is four segments: host operations that slice the two index rows, wrap negative source indices and
  gather the rows of x; the first kernel region (the edge messages); host operations that scatter-add the messages
  into a zero array at the destination indices; the second kernel region (the node update). Reading the result buffer
  back through the contents at the four segment boundaries:
    result = mlp x agg w1 b1 w2 b2,   agg = scatter-add of (msg (gathered rows) ea we be) at the destination indices,
  with every argument array as launched. The gathered rows, the zero array and the destination indices are named by the
  reference's own stage functions: the two programs apply the same host operations to the same index array there.
-/
import proofs.«431326_j19550691131956_3_alg».proof.Proof.KernelRun
import proofs.«431326_j19550691131956_3_alg».proof.Proof.EdgeRegion
import proofs.«431326_j19550691131956_3_alg».proof.Proof.NodeRegion
import proofs.«431326_j19550691131956_3_alg».proof.Proof.Gen.ReferenceIdeal.Read
import Idealize.ShloMosaic.Lib.StableHlo.Run

set_option maxRecDepth 16384

noncomputable section

namespace Cert.KernelIdeal.Whole

open Cert.KernelIdeal Cert.KernelIdeal.Gen Cert.Layer
open Cert.ReferenceIdeal.Read (val_main_v3 val_main_v14 val_main_v17 val_main_v18)
open Idealize.ShloMosaic Idealize.ShloMosaic.TcCoe Idealize.SL.Sem Idealize.ShloMosaic.StableHlo

variable (m : (ℓ : Loc nD τ sig) → Buf (Elt Ideal) ℓ) (ρ : Dev nD → PrngReg)

/-- The aggregated messages as a function of the launch memory. -/
abbrev agg (c : Dev nD) : FVec Ideal S100000x64 .f32 :=
  Host.scatterAdd (F := Ideal) Cert.ReferenceIdeal.scatter_S100000x64_S1600000x1_S1600000x64_1_0_0_1
    (val_main_v17 (F := Ideal)) (val_main_v18 (F := Ideal) (m ((c : Thread nD τ).loc main_arg1)))
    (msg (val_main_v14 (F := Ideal) (m ((c : Thread nD τ).loc main_arg0)) (m ((c : Thread nD τ).loc main_arg1)))
      (m ((c : Thread nD τ).loc main_arg2)) (m ((c : Thread nD τ).loc main_arg3)) (m ((c : Thread nD τ).loc main_arg4)))

/-- The program's result as a function of the launch memory. -/
abbrev result (c : Dev nD) : FVec Ideal S100000x64 .f32 :=
  mlp (m ((c : Thread nD τ).loc main_arg0)) (agg m c) (m ((c : Thread nD τ).loc main_arg5)) (m ((c : Thread nD τ).loc main_arg6))
    (m ((c : Thread nD τ).loc main_arg7)) (m ((c : Thread nD τ).loc main_arg8))

/-! ## What the first region is entered with -/

theorem entry0_xs (c : Dev nD) : V1 m ρ c main_v10
    = val_main_v14 (F := Ideal) (m ((c : Thread nD τ).loc main_arg0)) (m ((c : Thread nD τ).loc main_arg1)) := by
  show StableHlo.after hostOps0 (W0 m ρ c) (Proc.devRef .tc main_v10) = _
  after_results
  rfl

theorem entry0_ea (c : Dev nD) : V1 m ρ c main_arg2 = m ((c : Thread nD τ).loc main_arg2) := by
  show StableHlo.after hostOps0 (W0 m ρ c) (Proc.devRef .tc main_arg2) = _
  after_results

theorem entry0_we (c : Dev nD) : V1 m ρ c main_arg3 = m ((c : Thread nD τ).loc main_arg3) := by
  show StableHlo.after hostOps0 (W0 m ρ c) (Proc.devRef .tc main_arg3) = _
  after_results

theorem entry0_be (c : Dev nD) : V1 m ρ c main_arg4 = m ((c : Thread nD τ).loc main_arg4) := by
  show StableHlo.after hostOps0 (W0 m ρ c) (Proc.devRef .tc main_arg4) = _
  after_results

/-- The message array after the first region. -/
theorem msgs (c : Dev nD) : W2 m ρ c (Proc.devRef .tc main_v11)
    = msg (val_main_v14 (F := Ideal) (m ((c : Thread nD τ).loc main_arg0)) (m ((c : Thread nD τ).loc main_arg1)))
        (m ((c : Thread nD τ).loc main_arg2)) (m ((c : Thread nD τ).loc main_arg3)) (m ((c : Thread nD τ).loc main_arg4)) := by
  refine (W2_arr m ρ c 4).trans ?_
  rw [EdgeRegion.final (V1 m ρ) c, entry0_xs, entry0_ea, entry0_we, entry0_be]

/-! ## What the second region is entered with -/

/-- The destination indices, computed before the first region and untouched by it. -/
theorem entry1_dst (c : Dev nD) : W2 m ρ c (Proc.devRef .tc main_v3)
    = val_main_v3 (F := Ideal) (m ((c : Thread nD τ).loc main_arg1)) := by
  rw [W2_of_ne m ρ c main_v3 (by decide)]
  show StableHlo.after hostOps0 (W0 m ρ c) (Proc.devRef .tc main_v3) = _
  after_results
  rfl

theorem entry1_agg (c : Dev nD) : V3 m ρ c main_v14 = agg m c := by
  show StableHlo.after hostOps1 (W2 m ρ c) (Proc.devRef .tc main_v14) = _
  after_results
  rw [entry1_dst, msgs]
  rfl

theorem entry1_x (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)
theorem entry1_w1 (c : Dev nD) : V3 m ρ c main_arg5 = m ((c : Thread nD τ).loc main_arg5) :=
  ((W4_arr m ρ c 2).trans (((dat1 (V3 m ρ) c).arrAt_in 2 rfl _).trans (A_eq1 (V3 m ρ) c 2))).symm.trans (W4_main_arg5 m ρ c)
theorem entry1_b1 (c : Dev nD) : V3 m ρ c main_arg6 = m ((c : Thread nD τ).loc main_arg6) :=
  ((W4_arr m ρ c 3).trans (((dat1 (V3 m ρ) c).arrAt_in 3 rfl _).trans (A_eq1 (V3 m ρ) c 3))).symm.trans (W4_main_arg6 m ρ c)
theorem entry1_w2 (c : Dev nD) : V3 m ρ c main_arg7 = m ((c : Thread nD τ).loc main_arg7) :=
  ((W4_arr m ρ c 4).trans (((dat1 (V3 m ρ) c).arrAt_in 4 rfl _).trans (A_eq1 (V3 m ρ) c 4))).symm.trans (W4_main_arg7 m ρ c)
theorem entry1_b2 (c : Dev nD) : V3 m ρ c main_arg8 = m ((c : Thread nD τ).loc main_arg8) :=
  ((W4_arr m ρ c 5).trans (((dat1 (V3 m ρ) c).arrAt_in 5 rfl _).trans (A_eq1 (V3 m ρ) c 5))).symm.trans (W4_main_arg8 m ρ c)

/-- The result buffer at the last boundary. -/
theorem result_eq (c : Dev nD) : W4 m ρ c (Proc.devRef .tc main_v15) = result m c := by
  refine (W4_arr m ρ c 6).trans ?_
  rw [NodeRegion.final (V3 m ρ) c, entry1_x, entry1_agg, entry1_w1, entry1_b1, entry1_w2, entry1_b2]

/-! ## The run, read -/

/-- Every weakly fair execution terminates, nothing faulting, with the result buffer at `result` of the launch memory
    and the argument arrays as launched. -/
theorem run : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.Named.run (F := Ideal) m ρ)

end Cert.KernelIdeal.Whole

end
-- ==== Proof.RefSide.lean ====
/-
  The reference program's result as the two whole-array functions of `Cert.Layer`.

  Read one operation at a time, the reference computes, in this order: the edge projection `ea · we + be`; the rows of
  x gathered at the (wrapped) source indices; their sum cut off below at zero, which is `msg` of the gathered rows; the
  scatter-add of those messages into a zero array at the destination indices; and on x plus that aggregate the two
  linear maps with a cut-off between them, which is `mlp`. The gather and the scatter-add are never opened: the
  kernel's program applies the very same two operations to the very same index arrays.
  Each equation below is index by index: a matrix product is the sum over its contracted coordinate, a bias row
  broadcast over the rows reads the bias at the column, and the index functions the stage lemmas name are the pairs
  (row, k), (k, column), (row, column).
-/
import proofs.«431326_j19550691131956_3_alg».proof.Proof.Gen.ReferenceIdeal.Run
import proofs.«431326_j19550691131956_3_alg».proof.Proof.Gen.ReferenceIdeal.Read
import proofs.«431326_j19550691131956_3_alg».proof.Proof.Spec

noncomputable section

open scoped BigOperators

namespace Cert.ReferenceIdeal.Bridge

open Cert.ReferenceIdeal Cert.ReferenceIdeal.Gen Cert.ReferenceIdeal.Read Cert.Layer
open Idealize.ShloMosaic Idealize.ShloMosaic.TcCoe Idealize.SL.Sem Idealize.ShloMosaic.ValueIdx

/-- The reference's messages are `msg` of its gathered rows. -/
theorem msg_eq (x0 : (⟨S100000x64, .f32⟩ : BufTy).Contents (Elt Ideal)) (x1 : (⟨S2x1600000, .i32⟩ : BufTy).Contents (Elt Ideal)) (x2 : (⟨S1600000x4, .f32⟩ : BufTy).Contents (Elt Ideal)) (x3 : (⟨S4x64, .f32⟩ : BufTy).Contents (Elt Ideal)) (x4 : (⟨S64, .f32⟩ : BufTy).Contents (Elt Ideal)) :
    val_main_v16 (F := Ideal) x0 x1 x2 x3 x4 = msg (val_main_v14 (F := Ideal) x0 x1) x2 x3 x4 := by
  funext i
  rw [val_main_v16_apply, val_main_v15_apply, val_main_v7_apply, val_main_v4_apply, val_main_v6_apply, val_main_v5_apply,
    val_main_call0_v0_apply, val_main_call0_cst_apply]
  have hl : ∀ k : Fin 4, lidx_main_v4 i k = ix2 (⟨(i 0).val, (i 0).isLt⟩ : Fin 1600000) k := fun k => funext fun a => Fin.ext (by
    match a with
    | ⟨0, _⟩ => rfl
    | ⟨1, _⟩ => rfl)
  have hr : ∀ k : Fin 4, ridx_main_v4 i k = ix2 k (⟨(i 1).val, (i 1).isLt⟩ : Fin 64) := fun k => funext fun a => Fin.ext (by
    match a with
    | ⟨0, _⟩ => rfl
    | ⟨1, _⟩ => rfl)
  have hb : idx_main_v5 (idx_main_v6 i) = ix1 (⟨(i 1).val, (i 1).isLt⟩ : Fin 64) := funext fun a => Fin.ext (by
    match a with
    | ⟨0, _⟩ => rfl)
  have hi : i = ix2 (⟨(i 0).val, (i 0).isLt⟩ : Fin 1600000) (⟨(i 1).val, (i 1).isLt⟩ : Fin 64) := funext fun a => Fin.ext (by
    match a with
    | ⟨0, _⟩ => rfl
    | ⟨1, _⟩ => rfl)
  simp only [hl, hr, hb]
  rw [show val_main_v14 (F := Ideal) x0 x1 i = val_main_v14 (F := Ideal) x0 x1 (ix2 (⟨(i 0).val, (i 0).isLt⟩ : Fin 1600000) (⟨(i 1).val, (i 1).isLt⟩ : Fin 64)) from congrArg _ hi]
  rfl

/-- The hidden activations of the reference at (row of i, k). -/
theorem hid_eq (x0 : (⟨S100000x64, .f32⟩ : BufTy).Contents (Elt Ideal)) (x1 : (⟨S2x1600000, .i32⟩ : BufTy).Contents (Elt Ideal)) (x2 : (⟨S1600000x4, .f32⟩ : BufTy).Contents (Elt Ideal)) (x3 : (⟨S4x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (i : S100000x64.Idx) (k : Fin 64) :
    val_main_v25 (F := Ideal) x0 x1 x2 x3 x4 x5 x6 (lidx_main_v26 i k)
      = hidAt x0 (val_main_v19 (F := Ideal) x0 x1 x2 x3 x4) x5 x6 (⟨(i 0).val, (i 0).isLt⟩ : Fin 100000) k := by
  rw [val_main_v25_apply, val_main_v24_apply, val_main_v21_apply, val_main_v23_apply, val_main_v22_apply,
    val_main_call1_v0_apply, val_main_call1_cst_apply]
  have hl : ∀ l : Fin 64, lidx_main_v21 (lidx_main_v26 i k) l = ix2 (⟨(i 0).val, (i 0).isLt⟩ : Fin 100000) l := fun l => funext fun a => Fin.ext (by
    match a with
    | ⟨0, _⟩ => rfl
    | ⟨1, _⟩ => rfl)
  have hr : ∀ l : Fin 64, ridx_main_v21 (lidx_main_v26 i k) l = ix2 l k := fun l => funext fun a => Fin.ext (by
    match a with
    | ⟨0, _⟩ => rfl
    | ⟨1, _⟩ => rfl)
  have hb : idx_main_v22 (idx_main_v23 (lidx_main_v26 i k)) = ix1 k := funext fun a => Fin.ext (by
    match a with
    | ⟨0, _⟩ => rfl)
  simp only [hl, hr, hb, val_main_v20_apply]
  rfl

/-- The reference's result is `mlp` of x and its scatter-added aggregate. -/
theorem mlp_eq (x0 : (⟨S100000x64, .f32⟩ : BufTy).Contents (Elt Ideal)) (x1 : (⟨S2x1600000, .i32⟩ : BufTy).Contents (Elt Ideal)) (x2 : (⟨S1600000x4, .f32⟩ : BufTy).Contents (Elt Ideal)) (x3 : (⟨S4x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v29 (F := Ideal) x0 x1 x2 x3 x4 x5 x6 x7 x8
      = mlp x0 (val_main_v19 (F := Ideal) x0 x1 x2 x3 x4) x5 x6 x7 x8 := by
  funext i
  rw [val_main_v29_apply, val_main_v26_apply, val_main_v28_apply, val_main_v27_apply]
  have hr : ∀ k : Fin 64, ridx_main_v26 i k = ix2 k (⟨(i 1).val, (i 1).isLt⟩ : Fin 64) := fun k => funext fun a => Fin.ext (by
    match a with
    | ⟨0, _⟩ => rfl
    | ⟨1, _⟩ => rfl)
  have hb : idx_main_v27 (idx_main_v28 i) = ix1 (⟨(i 1).val, (i 1).isLt⟩ : Fin 64) := funext fun a => Fin.ext (by
    match a with
    | ⟨0, _⟩ => rfl)
  simp only [hr, hb]
  show (∑ k : Fin 64, val_main_v25 (F := Ideal) x0 x1 x2 x3 x4 x5 x6 (lidx_main_v26 i k) * x7 (ix2 k (⟨(i 1).val, (i 1).isLt⟩ : Fin 64))) + x8 (ix1 (⟨(i 1).val, (i 1).isLt⟩ : Fin 64))
    = (∑ k : Fin 64, hidAt x0 (val_main_v19 (F := Ideal) x0 x1 x2 x3 x4) x5 x6 (⟨(i 0).val, (i 0).isLt⟩ : Fin 100000) k * x7 (ix2 k (⟨(i 1).val, (i 1).isLt⟩ : Fin 64))) + x8 (ix1 (⟨(i 1).val, (i 1).isLt⟩ : Fin 64))
  congr 1
  exact Finset.sum_congr rfl fun k _ => by rw [hid_eq]

/-- The reference's result with its messages named: `mlp` of x and the scatter-add, at the destination indices, of
    `msg` of the rows gathered at the source indices. -/
theorem result_eq (x0 : (⟨S100000x64, .f32⟩ : BufTy).Contents (Elt Ideal)) (x1 : (⟨S2x1600000, .i32⟩ : BufTy).Contents (Elt Ideal)) (x2 : (⟨S1600000x4, .f32⟩ : BufTy).Contents (Elt Ideal)) (x3 : (⟨S4x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v29 (F := Ideal) x0 x1 x2 x3 x4 x5 x6 x7 x8
      = mlp x0 (Host.scatterAdd (F := Ideal) scatter_S100000x64_S1600000x1_S1600000x64_1_0_0_1 (val_main_v17 (F := Ideal)) (val_main_v18 (F := Ideal) x1)
          (msg (val_main_v14 (F := Ideal) x0 x1) x2 x3 x4) : FVec Ideal S100000x64 .f32) x5 x6 x7 x8 := by
  rw [mlp_eq]
  unfold val_main_v19
  rw [msg_eq]

end Cert.ReferenceIdeal.Bridge

end
-- ==== Proof.lean ====
/-
  A graph-isomorphism layer with edge features, as a Pallas program, against its jnp reference, over the extended reals.

  Both programs compute, for node features x : [100000, 64], an index array (source row, destination row) of 1,600,000
  edges, edge features ea : [1600000, 4] and the five parameter arrays:
      e    = ea · We + be                      one row of 64 per edge
      msg  = max (x[src] + e) 0                the gathered source row plus the projected edge, cut off at zero
      agg  = Σ over the edges into each destination row of msg   (a scatter-add into zeros)
      out  = max ((x + agg) · W1 + b1) 0 · W2 + b2.
  The kernel program does the gather and the scatter-add with the same host operations as the reference, on the same
  index arrays, and computes msg and out in two blocked kernel regions (200 blocks of 8,000 edges; 20 blocks of 5,000
  nodes) whose matrix products take operands narrowed to bf16 and accumulate from zero. Over the extended reals a
  narrowing is the identity and such a product is the plain sum over the contracted coordinate, so block by block each
  region writes exactly the rows of `Cert.Layer.msg` and of `Cert.Layer.mlp`, with every sum associated as in the
  reference. No algebraic law joins the two sides beyond these definitions, and the finiteness of the inputs is not used.

  The three frames: the two kernel programs' are the generated frame certificates; the reference has no kernel and its
  frame is its run with the result dropped. The idealisation rewrote no operation, so `preserves` is trivial.
-/
import proofs.«431326_j19550691131956_3_alg».proof.Defs
import proofs.«431326_j19550691131956_3_alg».proof.Proof.Gen.Kernel
import proofs.«431326_j19550691131956_3_alg».proof.Proof.Gen.Kernel.Skeleton
import proofs.«431326_j19550691131956_3_alg».proof.Proof.Gen.Kernel.Launch
import proofs.«431326_j19550691131956_3_alg».proof.Proof.Gen.Kernel.Points
import proofs.«431326_j19550691131956_3_alg».proof.Proof.Gen.Kernel.Frame
import proofs.«431326_j19550691131956_3_alg».proof.Proof.Gen.KernelIdeal
import proofs.«431326_j19550691131956_3_alg».proof.Proof.Gen.KernelIdeal.Skeleton
import proofs.«431326_j19550691131956_3_alg».proof.Proof.Gen.KernelIdeal.Launch
import proofs.«431326_j19550691131956_3_alg».proof.Proof.Gen.KernelIdeal.Points
import proofs.«431326_j19550691131956_3_alg».proof.Proof.Gen.KernelIdeal.Frame
import proofs.«431326_j19550691131956_3_alg».proof.Proof.Gen.ReferenceIdeal
import proofs.«431326_j19550691131956_3_alg».proof.Proof.Gen.ReferenceIdeal.Run
import proofs.«431326_j19550691131956_3_alg».proof.Proof.Gen.ReferenceIdeal.Read
import proofs.«431326_j19550691131956_3_alg».proof.Proof.Gen.Pre_finite_inputs
import proofs.«431326_j19550691131956_3_alg».proof.Proof.KernelValue
import proofs.«431326_j19550691131956_3_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the result at `mlp` of x and the scatter-added
    `msg`: the kernel's by its two regions read block by block, the reference's stage by stage. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v29_eq]
  exact Cert.ReferenceIdeal.Bridge.result_eq _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
